-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x5000 : Shape := ⟨2, ![16384, 5000]⟩
abbrev S16384 : Shape := ⟨1, ![16384]⟩
abbrev S_ : Shape := ⟨0, ![]⟩

class Facts : Prop where
  bcast_S_S16384x5000 : S_.BroadcastsInDim S16384x5000 (![] : Fin 0 → Fin S16384x5000.rank)
  reducesTo_S16384x5000_S_d0_1 : S16384x5000.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x5000 .f32) (main_arg1 : IVec S16384 32) : IVec S_ 1 :=
  let main_v0 : FVec F S16384x5000 .f32 := Host.absf main_arg0
  let main_cst : FVec F S_ .f32 := constant S_ .f32 0x7F800000#32
  let main_v1 : FVec F S16384x5000 .f32 := broadcastInDim S16384x5000 ![] bcast_S_S16384x5000 main_cst
  let main_v2 : IVec S16384x5000 1 := cmpf .olt main_v0 main_v1
  let main_c : IVec S_ 1 := constantI S_ 1 1#1
  let main_v3 : IVec S_ 1 := (fun x v => Host.reduce IntOp.andi x v reducesTo_S16384x5000_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 5000#32
  let main_v6 : IVec S16384 32 := broadcastInDim S16384 ![] bcast_S_S16384 main_c_1
  let main_v7 : IVec S16384 1 := cmpi .slt main_arg1 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384x5000 : Shape := ⟨2, ![16384, 5000]⟩
abbrev S16384 : Shape := ⟨1, ![16384]⟩
abbrev S16384x1 : Shape := ⟨2, ![16384, 1]⟩
abbrev S1x1 : Shape := ⟨2, ![1, 1]⟩
abbrev S256x5000 : Shape := ⟨2, ![256, 5000]⟩
abbrev S256x1 : Shape := ⟨2, ![256, 1]⟩
abbrev S256 : Shape := ⟨1, ![256]⟩
abbrev S1x256x5000 : Shape := ⟨3, ![1, 256, 5000]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S16384x5000, .f32⟩
  | .hbm, ⟨1, _⟩ => ⟨S16384, .i32⟩
  | .hbm, ⟨2, _⟩ => ⟨S16384x1, .i32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S256x5000, .f32⟩
  | .local _ .vmem, ⟨1, _⟩ => ⟨S256x5000, .f32⟩
  | .local _ .vmem, ⟨2, _⟩ => ⟨S256x1, .i32⟩
  | .local _ .vmem, ⟨3, _⟩ => ⟨S256x1, .i32⟩
  | .local _ .vmem, ⟨4, _⟩ => ⟨S1x1, .f32⟩
  | _, _ => ⟨S16384x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16384_S16384x1 : S16384.ShapeCasts S16384x1
  inb_S1x1_S1x1_0_0 : ∀ a, (![0, 0] : Fin 2 → Nat) a + S1x1.size a ≤ S1x1.size a
  h_S1x1 : 0 < S1x1.numel
  inb_S256x5000_S256x5000_0_0 : ∀ a, (![0, 0] : Fin 2 → Nat) a + S256x5000.size a ≤ S256x5000.size a
  h_S256x5000 : 0 < S256x5000.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x5000_d1_w32 : S256x5000.Iotas .tc 32 [1]
  broadcasts_S256x1_S256x5000 : S256x1.Broadcasts S256x5000
  reduces_S256x5000_S256 : S256x5000.Reduces [1] S256
  shapeCasts_S256_S256x1 : S256.ShapeCasts S256x1
  shapeCasts_S256x5000_S1x256x5000 : S256x5000.ShapeCasts S1x256x5000
  reduces_S1x256x5000_S1 : S1x256x5000.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x5000.size a ≤ S16384x5000.size a
  hwx0_0 : ∀ i : grid0.Coords, EltTy.bits .f32 = 32 ∨ (Rect.block (s := S16384x5000) S256x5000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .i32 = 32 ∨ (Rect.block (s := S16384x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S256x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x5000 : Shape := ⟨2, ![16384, 5000]⟩
abbrev S16384 : Shape := ⟨1, ![16384]⟩
abbrev S16384x1 : Shape := ⟨2, ![16384, 1]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S5000 : Shape := ⟨1, ![5000]⟩
abbrev S1x5000 : Shape := ⟨2, ![1, 5000]⟩

abbrev nBuf : Space → Nat
  | .hbm => 47
  | .vmem => 0
  | .smem => 0
  | _ => 0

abbrev bufTy : (tb : Table) → Fin (tcTables nBuf tb) → BufTy
  | .hbm, ⟨0, _⟩ => ⟨S16384x5000, .f32⟩
  | .hbm, ⟨1, _⟩ => ⟨S16384, .i32⟩
  | .hbm, ⟨2, _⟩ => ⟨S16384x1, .i32⟩
  | .hbm, ⟨3, _⟩ => ⟨S_, .i32⟩
  | .hbm, ⟨4, _⟩ => ⟨S16384x1, .i32⟩
  | .hbm, ⟨5, _⟩ => ⟨S16384x1, .i1⟩
  | .hbm, ⟨6, _⟩ => ⟨S_, .i32⟩
  | .hbm, ⟨7, _⟩ => ⟨S16384x1, .i32⟩
  | .hbm, ⟨8, _⟩ => ⟨S16384x1, .i32⟩
  | .hbm, ⟨9, _⟩ => ⟨S16384x1, .i32⟩
  | .hbm, ⟨10, _⟩ => ⟨S16384x1x1, .i32⟩
  | .hbm, ⟨11, _⟩ => ⟨S1, .i32⟩
  | .hbm, ⟨12, _⟩ => ⟨S_, .i32⟩
  | .hbm, ⟨13, _⟩ => ⟨S16384x1x1, .i32⟩
  | .hbm, ⟨14, _⟩ => ⟨S16384x1x1, .i1⟩
  | .hbm, ⟨15, _⟩ => ⟨S1x1x1, .i32⟩
  | .hbm, ⟨16, _⟩ => ⟨S16384x1x1, .i32⟩
  | .hbm, ⟨17, _⟩ => ⟨S16384x1x1, .i1⟩
  | .hbm, ⟨18, _⟩ => ⟨S16384x1x1, .i1⟩
  | .hbm, ⟨19, _⟩ => ⟨S_, .i1⟩
  | .hbm, ⟨20, _⟩ => ⟨S16384x1, .i1⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x5000, .f32⟩
  | .hbm, ⟨27, _⟩ => ⟨S16384x5000, .f32⟩
  | .hbm, ⟨28, _⟩ => ⟨S16384x5000, .f32⟩
  | .hbm, ⟨29, _⟩ => ⟨S16384x5000, .f32⟩
  | .hbm, ⟨30, _⟩ => ⟨S_, .f32⟩
  | .hbm, ⟨31, _⟩ => ⟨S16384x5000, .f32⟩
  | .hbm, ⟨32, _⟩ => ⟨S16384x5000, .f32⟩
  | .hbm, ⟨33, _⟩ => ⟨S5000, .i32⟩
  | .hbm, ⟨34, _⟩ => ⟨S1x5000, .i32⟩
  | .hbm, ⟨35, _⟩ => ⟨S16384x1, .i32⟩
  | .hbm, ⟨36, _⟩ => ⟨S16384x5000, .i32⟩
  | .hbm, ⟨37, _⟩ => ⟨S16384x5000, .i32⟩
  | .hbm, ⟨38, _⟩ => ⟨S16384x5000, .i1⟩
  | .hbm, ⟨39, _⟩ => ⟨S_, .f32⟩
  | .hbm, ⟨40, _⟩ => ⟨S_, .f32⟩
  | .hbm, ⟨41, _⟩ => ⟨S16384x5000, .f32⟩
  | .hbm, ⟨42, _⟩ => ⟨S16384x5000, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S16384x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_cst : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  bcast_S_S16384x5000 : S_.BroadcastsInDim S16384x5000 (![] : Fin 0 → Fin S16384x5000.rank)
  bcast_S16384x1_S16384x5000_0_1 : S16384x1.BroadcastsInDim S16384x5000 (![0, 1] : Fin 2 → Fin S16384x5000.rank)
  bcast_S5000_S1x5000_1 : S5000.BroadcastsInDim S1x5000 (![1] : Fin 1 → Fin S1x5000.rank)
  bcast_S1x5000_S16384x5000_0_1 : S1x5000.BroadcastsInDim S16384x5000 (![0, 1] : Fin 2 → Fin S16384x5000.rank)
  reducesTo_S16384x5000_S_d0_1 : S16384x5000.ReducesTo [0, 1] S_
  gather_S16384x5000_S16384x1x1_S16384x1_n_1_0_0_1_2_11_wf : GatherDims.WF S16384x5000 S16384x1x1 S16384x1 [] [1] [0] [1] [0] 2 ![1, 1]

variable [Facts₀]

def gather_S16384x5000_S16384x1x1_S16384x1_n_1_0_0_1_2_11 : GatherDims S16384x5000 S16384x1x1 S16384x1 where
  offsetDims := []
  collapsedSliceDims := [1]
  operandBatchingDims := [0]
  startIndicesBatchingDims := [0]
  startIndexMap := [1]
  indexVectorDim := 2
  sliceSizes := ![1, 1]
  wf := gather_S16384x5000_S16384x1x1_S16384x1_n_1_0_0_1_2_11_wf

class Facts : Prop extends Facts₀ where

variable [Facts]
-- ==== Proof.Spec.lean ====
/-
  The mathematics of the multiple-choice hinge loss, over plain coordinates, with no program in sight.

  A row of the loss is a vector of 5000 scores `s` and one 32-bit label word `t`.  The score the label picks is written
  the way a mask picks it: the sum over the columns of the score where the column's word equals `t` and of zero elsewhere
  (`picked`).  When `t` names a column (`t.toNat < 5000`) exactly one summand survives and `picked s t = s t`
  (`picked_of_lt`); this is the one place where the label's range enters.  A cell of the loss is zero on the label's own
  column and `max 0 ((1 + s q) - picked s t)` elsewhere; a row's loss is the sum of its cells, the total the sum of the
  16384 rows' losses.

  The total is also reached 256 rows at a time: `prefixLoss n` is the loss of the first `256 * n` rows, it grows by one
  block of 256 rows per step (`prefixLoss_succ`), and after 64 steps it is the total (`prefixLoss_all`).  Sums of extended
  reals are sums in a commutative monoid, so none of this asks the scores to be finite.
-/
import Idealize.ShloMosaic.PureOps.Ideal
import Idealize.ShloMosaic.PureOps.Ideal.Laws
import Idealize.ShloMosaic.Lib.ValueIdx
import Mathlib.Algebra.BigOperators.Fin
import Mathlib.Algebra.BigOperators.Group.Finset.Piecewise

noncomputable section

namespace Cert.Hinge

open Idealize.ShloMosaic Idealize.ShloMosaic.ValueIdx

/-- The margin, kept as the binary32 word both programs print for `1.0`. -/
abbrev margin : EReal := Ideal.ofBits .f32 0x3F800000#32

/-- The word a column's position is compared with the label as. -/
abbrev colWord (q : Fin 5000) : BitVec 32 := BitVec.ofNat 32 q.val

/-- The score the mask "column = label" picks out of a row: the scores summed where the column's word is the label. -/
def picked (s : Fin 5000 → EReal) (t : BitVec 32) : EReal :=
  ∑ k : Fin 5000, Scalar.select (IntOp.cmpi .eq (colWord k) t) (s k) 0

/-- One cell of the loss: nothing on the label's own column, the clamped margin violation elsewhere. -/
def cell (s : Fin 5000 → EReal) (t : BitVec 32) (q : Fin 5000) : EReal :=
  Scalar.select (IntOp.cmpi .eq (colWord q) t) 0 (max 0 ((margin + s q) - picked s t))

/-- A row's loss. -/
def rowLoss (s : Fin 5000 → EReal) (t : BitVec 32) : EReal := ∑ q : Fin 5000, cell s t q

/-- Two column words are equal only for equal columns: 5000 is far below 2^32. -/
theorem colWord_inj {a b : Fin 5000} (h : colWord a = colWord b) : a = b := by
  have ha := a.isLt; have hb := b.isLt
  have := congrArg BitVec.toNat h
  simp only [colWord, BitVec.toNat_ofNat] at this
  apply Fin.ext
  omega

/-- The comparison of a column's word with a label that names column `c` is the comparison of the columns. -/
theorem cmpi_colWord (k c : Fin 5000) : IntOp.cmpi .eq (colWord k) (colWord c) = if k = c then 1#1 else 0#1 := by
  by_cases h : k = c
  · subst h; simp [IntOp.cmpi]
  · rw [if_neg h]
    have hb : (colWord k == colWord c) = false := beq_eq_false_iff_ne.mpr fun e => h (colWord_inj e)
    show BitVec.ofBool (colWord k == colWord c) = 0#1
    rw [hb]; rfl

/-- A label word below 5000 is the word of the column it names. -/
theorem word_eq_colWord (t : BitVec 32) (h : t.toNat < 5000) : t = colWord ⟨t.toNat, h⟩ := by
  apply BitVec.eq_of_toNat_eq
  simp only [colWord, BitVec.toNat_ofNat]
  have := t.isLt
  omega

/-- WHERE THE LABEL NAMES A COLUMN, the mask picks exactly that column's score: every other summand is zero. -/
theorem picked_of_lt (s : Fin 5000 → EReal) (t : BitVec 32) (h : t.toNat < 5000) : picked s t = s ⟨t.toNat, h⟩ := by
  unfold picked
  conv_lhs => rw [word_eq_colWord t h]
  simp only [cmpi_colWord, Scalar.select]
  rw [Finset.sum_eq_single (⟨t.toNat, h⟩ : Fin 5000)]
  · simp
  · intro b _ hb; simp [hb]
  · intro hn; exact absurd (Finset.mem_univ _) hn

/-! ## The 16384 rows, and the total 256 rows at a time -/

/-- Row `p` of the score matrix. -/
abbrev rowOf (score : (⟨2, ![16384, 5000]⟩ : Shape).Idx → EReal) (p : Fin 16384) : Fin 5000 → EReal := fun q => score (ix2 p q)

/-- Row `p`'s loss under its label. -/
def lossRow (score : (⟨2, ![16384, 5000]⟩ : Shape).Idx → EReal) (tgt : (⟨1, ![16384]⟩ : Shape).Idx → BitVec 32) (p : Fin 16384) : EReal :=
  rowLoss (rowOf score p) (tgt (ix1 p))

/-- The same over a natural row number, zero past the last row. -/
def lossN (score : (⟨2, ![16384, 5000]⟩ : Shape).Idx → EReal) (tgt : (⟨1, ![16384]⟩ : Shape).Idx → BitVec 32) (i : ℕ) : EReal :=
  if h : i < 16384 then lossRow score tgt ⟨i, h⟩ else 0

/-- The whole loss, before the division by the count. -/
def total (score : (⟨2, ![16384, 5000]⟩ : Shape).Idx → EReal) (tgt : (⟨1, ![16384]⟩ : Shape).Idx → BitVec 32) : EReal :=
  ∑ p : Fin 16384, lossRow score tgt p

/-- The loss of the first `n` blocks of 256 rows. -/
def prefixLoss (score : (⟨2, ![16384, 5000]⟩ : Shape).Idx → EReal) (tgt : (⟨1, ![16384]⟩ : Shape).Idx → BitVec 32) (n : ℕ) : EReal :=
  ∑ i ∈ Finset.range (256 * n), lossN score tgt i

theorem prefixLoss_zero (score : (⟨2, ![16384, 5000]⟩ : Shape).Idx → EReal) (tgt : (⟨1, ![16384]⟩ : Shape).Idx → BitVec 32) :
    prefixLoss score tgt 0 = 0 := by
  simp [prefixLoss]

/-- One more block: the prefix grows by the 256 rows of block `n`. -/
theorem prefixLoss_succ (score : (⟨2, ![16384, 5000]⟩ : Shape).Idx → EReal) (tgt : (⟨1, ![16384]⟩ : Shape).Idx → BitVec 32) (n : ℕ) :
    prefixLoss score tgt (n + 1) = prefixLoss score tgt n + ∑ r : Fin 256, lossN score tgt (256 * n + r.val) := by
  unfold prefixLoss
  rw [show 256 * (n + 1) = 256 * n + 256 by ring, Finset.sum_range_add]
  exact congrArg (_ + ·) (Finset.sum_range fun x => lossN score tgt (256 * n + x))

/-- After all 64 blocks the prefix is the total. -/
theorem prefixLoss_all (score : (⟨2, ![16384, 5000]⟩ : Shape).Idx → EReal) (tgt : (⟨1, ![16384]⟩ : Shape).Idx → BitVec 32) :
    prefixLoss score tgt 64 = total score tgt := by
  unfold prefixLoss total
  rw [show 256 * 64 = 16384 by norm_num, Finset.sum_range]
  exact Finset.sum_congr rfl fun p _ => by
    unfold lossN
    rw [dif_pos p.isLt]

/-- A row number inside block `t` is a row of the matrix. -/
theorem lossN_block (score : (⟨2, ![16384, 5000]⟩ : Shape).Idx → EReal) (tgt : (⟨1, ![16384]⟩ : Shape).Idx → BitVec 32)
    (n : ℕ) (hn : n < 64) (r : Fin 256) (h : 256 * n + r.val < 16384) :
    lossN score tgt (256 * n + r.val) = lossRow score tgt ⟨256 * n + r.val, h⟩ := by
  unfold lossN
  rw [dif_pos h]

/-- The last step of both programs: the division by the count `16384 * 4999`, as the host's division by the printed word. -/
def finish (X : EReal) : (⟨0, ![]⟩ : Shape).Idx → EReal :=
  Host.divf (F := Ideal) (φ := .f32) (fun _ => X) (constant (F := Ideal) ⟨0, ![]⟩ .f32 0x4C9C3800#32)

end Cert.Hinge

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.LibTakeAlongRow.lean ====
/-
  jnp's `take_along_axis(x, idx[:, None], axis=1)` on a matrix, read at a row.

  For a table `x : [N, C]` and one index per row, jax lowers the pick to a `stablehlo.gather` whose start indices are
  laid out `[N, 1, 1]`: axis 0 of the table is a batching axis paired with axis 0 of the indices, axis 1 of the table is
  collapsed and is the one axis the start index names, the index vector sits on the last axis, every slice has one
  element, and the result is `[N, 1]`.  Read at row `p` the gather is the table at row `p` and at the column the start
  index names, read signed and clamped into `[0, C - 1]` as the gather clamps every start index (`gather_rowTake_apply`).
  When the index word is already a column number below `C` the clamp does nothing (`clamp_of_lt`).
  Generic in `N`, `C`, the index width and the element type.
-/
import Idealize.ShloMosaic.PureOps.ShapeOps
import Idealize.ShloMosaic.Lib.ValueIdx
import Idealize.ShloMosaic.Lib.StableHlo.Predicate

namespace Idealize.ShloMosaic.RowTake

open Idealize.ShloMosaic Idealize.ShloMosaic.ValueIdx

variable {α : Type}

/-- The dimension numbers of the row-wise pick, for a table `[N, C]`, start indices `[N, 1, 1]` and a result `[N, 1]`. -/
abbrev rowTakeDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- THE PICK READ AT ROW `p`: the table at (p, the start index of row p read signed and clamped into [0, C - 1]). -/
theorem gather_rowTake_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (p : Fin N) :
    Host.gather (rowTakeDims N C wf) x idx (ix2 p (0 : Fin 1))
      = x (ix2 p ⟨min (idx (ix3 p (0 : Fin 1) (0 : Fin 1))).toInt.toNat (C - 1), by omega⟩) := by
  unfold Host.gather
  congr 1
  funext a
  refine Fin.ext ?_
  match a with
  | ⟨0, _⟩ =>
    show (rowTakeDims N C wf).start (ix2 p (0 : Fin 1)) idx 0 + (rowTakeDims N C wf).batchCoord (ix2 p (0 : Fin 1)) 0
      + (rowTakeDims N C wf).offCoord (ix2 p (0 : Fin 1)) 0 = p.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (rowTakeDims N C wf).operandBatchingDims from List.mem_singleton.mpr rfl)]
    rfl
  | ⟨1, _⟩ =>
    show (rowTakeDims N C wf).start (ix2 p (0 : Fin 1)) idx 1 + (rowTakeDims N C wf).batchCoord (ix2 p (0 : Fin 1)) 1
      + (rowTakeDims N C wf).offCoord (ix2 p (0 : Fin 1)) 1 = _
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTakeDims N C wf).startIndexMap from List.mem_singleton.mpr rfl)]
    have hsi : (rowTakeDims N C wf).siIdx (ix2 p (0 : Fin 1)) ⟨List.idxOf (1 : Fin 2) (rowTakeDims N C wf).startIndexMap,
        List.idxOf_lt_length_iff.2 (List.mem_singleton.mpr rfl)⟩ = ix3 p (0 : Fin 1) (0 : Fin 1) := by
      funext b; refine Fin.ext ?_
      match b with
      | ⟨0, _⟩ => rfl
      | ⟨1, _⟩ => rfl
      | ⟨2, _⟩ => rfl
    rw [hsi]
    rfl

/-- An index word that is a column number below `C` (and below 2^31) is not moved by the signed read and the clamp. -/
theorem clamp_of_lt {C : Nat} (t : BitVec 32) (h : t.toNat < C) (hC : C ≤ 2 ^ 31) : min t.toInt.toNat (C - 1) = t.toNat := by
  rw [StableHlo.Predicate.toInt_eq_toNat_of_lt (by omega)]
  simp only [Int.toNat_natCast]
  omega

end Idealize.ShloMosaic.RowTake
-- ==== Proof.RefValue.lean ====
/-
  The reference at the ideal instance, under the label-range hypothesis: its result is the total loss over the count.

  The reference picks each row's correct score with `take_along_axis` in fill mode: the label is wrapped
  (`label + 5000` if negative), tested for `0 ≤ · ≤ 4999`, used as a clamped gather index, and the gathered score is
  replaced by NaN where the test fails.  For a label that names a column (below 5000 as a natural number) the wrap does
  nothing, the test passes, the clamp does nothing, and the gathered score is the row's score at the label's column —
  which is what the mask of the specification picks (`Cert.Hinge.picked_of_lt`).  The rest is pointwise: the margin plus the
  score minus the picked score, clamped at zero, kept where the column differs from the label; the host sums it over both
  axes from zero and divides by the count.
-/
import proofs.«405424_j49374944035068_1_alg».proof.Proof.RefRun
import proofs.«405424_j49374944035068_1_alg».proof.Proof.Spec
import proofs.«405424_j49374944035068_1_alg».proof.Proof.LibIndexWrap
import proofs.«405424_j49374944035068_1_alg».proof.Proof.LibTakeAlongRow
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.ValueIdx Idealize.ShloMosaic.StableHlo.Predicate
open Idealize.ShloMosaic.IndexWrap Idealize.ShloMosaic.RowTake
open Cert.ReferenceIdeal Cert.ReferenceIdeal.Gen Cert.Hinge

variable (score : FVec Ideal S16384x5000 .f32) (tgt : IVec S16384 32)

/-- The labels as a [16384, 1] column. -/
abbrev labelCol : IVec S16384x1 32 := broadcastInDim S16384x1 ![0] bcast_S16384_S16384x1_0 tgt

/-- The wrapped labels, as the gather's [16384, 1, 1] start indices. -/
abbrev startIdx : IVec S16384x1x1 32 :=
  shapeCast S16384x1x1
    (select (cmpi .slt (labelCol tgt) (broadcastInDim S16384x1 ![] bcast_S_S16384x1 (constantI S_ 32 0#32)))
      (addi (labelCol tgt) (broadcastInDim S16384x1 ![] bcast_S_S16384x1 (constantI S_ 32 5000#32))) (labelCol tgt))
    shapeCasts_S16384x1_S16384x1x1

/-- The fill-mode range test of the wrapped labels. -/
abbrev inRange : IVec S16384x1 1 :=
  Host.reduce IntOp.andi
    (andi (cmpi .sge (startIdx tgt) (broadcastInDim S16384x1x1 ![] bcast_S_S16384x1x1 (constantI S_ 32 0#32)))
      (cmpi .sle (startIdx tgt) (broadcastInDim S16384x1x1 ![0, 1, 2] bcast_S1x1x1_S16384x1x1_0_1_2
        (broadcastInDim S1x1x1 ![2] bcast_S1_S1x1x1_2 (constantI S1 32 4999#32)))))
    (constantI S_ 1 1#1) reducesTo_S16384x1x1_S16384x1_d2 h_S_

/-- The picked scores, [16384, 1]: the gather where the range test passes, NaN elsewhere. -/
abbrev correct : FVec Ideal S16384x1 .f32 :=
  select (inRange tgt) (Host.gather gather_S16384x5000_S16384x1x1_S16384x1_n_1_0_0_1_2_11 score (startIdx tgt))
    (broadcastInDim S16384x1 ![] bcast_S_S16384x1 (constant S_ .f32 0x7FC00000#32))

/-- What the reference sums: the clamped margin violation where the column differs from the label, zero on the label's column. -/
abbrev summand : FVec Ideal S16384x5000 .f32 :=
  select
    (cmpi .ne (broadcastInDim S16384x5000 ![0, 1] bcast_S1x5000_S16384x5000_0_1 (broadcastInDim S1x5000 ![1] bcast_S5000_S1x5000_1 (iotaInDim S5000 32 0)))
      (broadcastInDim S16384x5000 ![0, 1] bcast_S16384x1_S16384x5000_0_1 (broadcastInDim S16384x1 ![0] bcast_S16384_S16384x1_0 tgt)))
    (maximumf (broadcastInDim S16384x5000 ![] bcast_S_S16384x5000 (constant S_ .f32 0x00000000#32))
      (subf (addf (broadcastInDim S16384x5000 ![] bcast_S_S16384x5000 (constant S_ .f32 0x3F800000#32)) score)
        (broadcastInDim S16384x5000 ![0, 1] bcast_S16384x1_S16384x5000_0_1 (correct score tgt))))
    (broadcastInDim S16384x5000 ![] bcast_S_S16384x5000 (id (constant S_ .f32 0x00000000#32)))

/-- THE REFERENCE'S RESULT as a function of the two arguments: the printed run's term. -/
abbrev result : FVec Ideal S_ .f32 :=
  Host.divf (Host.reduceAdd (summand score tgt) (constant S_ .f32 0x00000000#32) reducesTo_S16384x5000_S_d0_1 h_S_)
    (constant S_ .f32 0x4C9C3800#32)

/-! ## A label that names a column -/

theorem ixP_eq (p : Fin 16384) : (ixP p : S16384x1.Idx) = ix2 p (0 : Fin 1) := by
  funext a; match a with | ⟨0, _⟩ => rfl | ⟨1, _⟩ => rfl

theorem ij_eq (p : Fin 16384) (q : Fin 5000) : (ij p q : S16384x5000.Idx) = ix2 p q := by
  funext a; match a with | ⟨0, _⟩ => rfl | ⟨1, _⟩ => rfl

theorem ofFin_eq (p : Fin 16384) : (Shape.Idx.ofFin p : S16384.Idx) = ix1 p := by
  funext a; match a with | ⟨0, _⟩ => rfl

/-- The label column at row `p` is row `p`'s label. -/
theorem labelCol_apply (p : Fin 16384) : labelCol tgt (ix2 p (0 : Fin 1)) = tgt (ix1 p) := by
  rw [← ixP_eq, ← ofFin_eq]
  exact bcast_col1 bcast_S16384_S16384x1_0 tgt p

/-- The start index of row `p` is the wrapped label. -/
theorem startIdx_apply (p : Fin 16384) :
    startIdx tgt (ix3 p (0 : Fin 1) (0 : Fin 1)) = wrapWord (BitVec.ofNat 32 5000) (tgt (ix1 p)) := by
  refine (shapeCast_apply _ _ (ix3 p (0 : Fin 1) (0 : Fin 1)) (ix2 p (0 : Fin 1)) (by
    rw [Shape.rowMajor_val_two, Shape.rowMajor_val_three]; show p.val * 1 + 0 = (p.val * 1 + 0) * 1 + 0; omega)).trans ?_
  show Scalar.select (IntOp.cmpi .slt (labelCol tgt (ix2 p (0 : Fin 1))) 0#32)
    (IntOp.addi (labelCol tgt (ix2 p (0 : Fin 1))) 5000#32) (labelCol tgt (ix2 p (0 : Fin 1))) = _
  rw [labelCol_apply]
  rfl

/-- A word below 5000 as a natural number is its own signed value. -/
theorem toInt_of_lt (t : BitVec 32) (h : t.toNat < 5000) : t.toInt = (t.toNat : Int) :=
  toInt_eq_toNat_of_lt (by omega)

/-- The wrap leaves a label that names a column alone. -/
theorem wrap_of_lt (t : BitVec 32) (h : t.toNat < 5000) : wrapWord (BitVec.ofNat 32 5000) t = t := by
  unfold wrapWord Scalar.select
  have hz : (0#32 : BitVec 32).toInt = 0 := by decide
  rw [if_neg]
  intro hs
  have := IntOp.cmpi_slt.1 hs
  rw [hz, toInt_of_lt t h] at this
  omega

/-- A comparison for "differs" selects the other way round from the comparison for "equals". -/
theorem select_ne {α : Type} (a b : BitVec 32) (x z : α) :
    Scalar.select (IntOp.cmpi .ne a b) x z = Scalar.select (IntOp.cmpi .eq a b) z x := by
  by_cases h : a = b
  · subst h; simp [IntOp.cmpi, Scalar.select]
  · have hb : (a == b) = false := beq_eq_false_iff_ne.mpr h
    have hn : (a != b) = true := by simp [bne, hb]
    show Scalar.select (BitVec.ofBool (a != b)) x z = Scalar.select (BitVec.ofBool (a == b)) z x
    rw [hb, hn]; rfl

variable {tgt}
variable (hl : ∀ p : Fin 16384, (tgt (ix1 p)).toNat < 5000)
include hl

/-- The range test passes on every row. -/
theorem inRange_ones (j : S16384x1.Idx) : inRange tgt j = 1#1 := by
  refine reduce_andi_of_all _ _ _ _ (fun _ => rfl) (fun i => ?_) j
  obtain ⟨p, rfl⟩ : ∃ p : Fin 16384, i = ix3 p (0 : Fin 1) (0 : Fin 1) := ⟨i 0, funext fun a => Fin.ext (by
    match a with
    | ⟨0, _⟩ => rfl
    | ⟨1, _⟩ => show (i 1).val = 0; have h : (i 1).val < 1 := (i 1).isLt; omega
    | ⟨2, _⟩ => show (i 2).val = 0; have h : (i 2).val < 1 := (i 2).isLt; omega)⟩
  show IntOp.andi (IntOp.cmpi .sge (startIdx tgt (ix3 p (0 : Fin 1) (0 : Fin 1))) 0#32)
    (IntOp.cmpi .sle (startIdx tgt (ix3 p (0 : Fin 1) (0 : Fin 1))) 4999#32) = 1#1
  rw [startIdx_apply]
  have h := hl p
  exact rangeTest_wrap 5000 (by norm_num) (by norm_num) 4999#32 (by decide) (tgt (ix1 p))
    (by rw [toInt_of_lt _ h]; omega) (by rw [toInt_of_lt _ h]; omega)

/-- THE PICKED SCORE: row `p`'s score at its label's column, as the mask of the specification picks it. -/
theorem correct_apply (p : Fin 16384) :
    correct score tgt (ix2 p (0 : Fin 1)) = picked (rowOf score p) (tgt (ix1 p)) := by
  have h := hl p
  show Scalar.select (inRange tgt (ix2 p (0 : Fin 1))) _ _ = _
  rw [inRange_ones hl, select_one]
  refine (gather_rowTake_apply (by norm_num) gather_S16384x5000_S16384x1x1_S16384x1_n_1_0_0_1_2_11_wf score (startIdx tgt) p).trans ?_
  rw [picked_of_lt _ _ h]
  refine congrArg score (congrArg (ix2 p) (Fin.ext ?_))
  show min (startIdx tgt (ix3 p (0 : Fin 1) (0 : Fin 1))).toInt.toNat (5000 - 1) = (tgt (ix1 p)).toNat
  rw [startIdx_apply, wrap_of_lt _ h]
  exact clamp_of_lt _ h (by norm_num)

/-- One summand of the reference is one cell of the specification. -/
theorem summand_apply (p : Fin 16384) (q : Fin 5000) :
    summand score tgt (ix2 p q) = cell (rowOf score p) (tgt (ix1 p)) q := by
  have hzero : (Ideal.ofBits .f32 0x00000000#32 : EReal) = 0 := Ideal.ofBits_zero_f32
  have hcol : broadcastInDim S16384x5000 ![0, 1] bcast_S1x5000_S16384x5000_0_1
      (broadcastInDim S1x5000 ![1] bcast_S5000_S1x5000_1 (iotaInDim S5000 32 0)) (ix2 p q) = colWord q := by
    rw [← ij_eq]; exact bcast_cols bcast_S5000_S1x5000_1 bcast_S1x5000_S16384x5000_0_1 _ p q
  have hlab : broadcastInDim S16384x5000 ![0, 1] bcast_S16384x1_S16384x5000_0_1
      (broadcastInDim S16384x1 ![0] bcast_S16384_S16384x1_0 tgt) (ix2 p q) = tgt (ix1 p) := by
    rw [← ij_eq, ← ofFin_eq]; exact bcast_rows bcast_S16384_S16384x1_0 bcast_S16384x1_S16384x5000_0_1 tgt p q
  have hcor : broadcastInDim S16384x5000 ![0, 1] bcast_S16384x1_S16384x5000_0_1 (correct score tgt) (ix2 p q)
      = picked (rowOf score p) (tgt (ix1 p)) := by
    rw [← ij_eq]
    refine (bcast_of_col bcast_S16384x1_S16384x5000_0_1 (correct score tgt) p q).trans ?_
    rw [ixP_eq]; exact correct_apply score hl p
  show Scalar.select (IntOp.cmpi .ne _ _) (max (Ideal.ofBits .f32 0x00000000#32) ((margin + score (ix2 p q)) - _))
    (Ideal.ofBits .f32 0x00000000#32) = _
  rw [hcol, hlab, hcor, select_ne, hzero]
  rfl

/-- THE REFERENCE'S RESULT under the label-range hypothesis: the total loss over the count. -/
theorem result_eq : result score tgt = finish (total score tgt) := by
  show Host.divf _ _ = Host.divf _ _
  refine congrArg (fun X => Host.divf (F := Ideal) X (constant (F := Ideal) S_ .f32 0x4C9C3800#32)) ?_
  funext j
  show Ideal.hostReduceAdd reducesTo_S16384x5000_S_d0_1 (summand score tgt) (Ideal.ofBits .f32 0x00000000#32) j = _
  refine (Ideal.hostReduceAdd_total reducesTo_S16384x5000_S_d0_1 (fun b => b.elim0) (summand score tgt) _ j).trans ?_
  rw [Ideal.ofBits_zero_f32, zero_add, sum_idx2]
  unfold total lossRow rowLoss
  exact Finset.sum_congr rfl fun p _ => Finset.sum_congr rfl fun q _ => summand_apply score hl p q

end Cert.ReferenceIdeal.RefValue

end
-- ==== Proof.KPieces.lean ====
/-
  What each control case of the body leaves in the [1, 1] output's staging buffer, as a value.

  At the first grid point the body first stores the zero entry, reads it back, and stores the body's sum over it; at every
  later point it reads what the point before left and stores the body's sum over that.  Both are the body's one arithmetic
  term (the payload of its last store) at the tile's scores and labels, over the zero entry in the first case and over the
  carried entry in the second.  Stated at any instance of the float operations.
-/
import proofs.«405424_j49374944035068_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- A LATER POINT: the staging buffer holding `xo` ends at the body's term over `xo`. -/
theorem out_B (c : Dev nD) (i : grid0.Coords) (a1 : Memref sig .tc .vmem S256x5000 .f32) (h1 : a1.IsWhole)
    (a2 : Memref sig .tc .vmem S256x1 .i32) (h2 : a2.IsWhole) (a3 : Memref sig .tc .vmem S1x1 .f32) (h3 : a3.IsWhole)
    (hc : ¬cond0_0 i) (x0 : Vec F S256x5000 .f32) (x1 : Vec F S256x1 .i32) (xo : Vec F S1x1 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S256x5000) hz,
    View.ld_unit_zero (S := S256x1) hz, View.ld_unit_zero (S := S1x1) hz]

/-- THE FIRST POINT: the zero entry is stored, read back, and the body's term over it stored. -/
theorem out_A (c : Dev nD) (i : grid0.Coords) (a1 : Memref sig .tc .vmem S256x5000 .f32) (h1 : a1.IsWhole)
    (a2 : Memref sig .tc .vmem S256x1 .i32) (h2 : a2.IsWhole) (a3 : Memref sig .tc .vmem S1x1 .f32) (h3 : a3.IsWhole)
    (hc : cond0_0 i) (x0 : Vec F S256x5000 .f32) (x1 : Vec F S256x1 .i32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S256x5000) hz,
    View.ld_unit_zero (S := S256x1) hz, View.ld_unit_zero (S := S1x1) hz, View.readCov_unit_zero (S := S1x1) _ hz]

end Cert.KernelIdeal.Pieces

end
-- ==== Proof.KPay.lean ====
/-
  The kernel body's arithmetic at the ideal instance, read at its one output entry.

  On a tile of 256 rows the body holds the scores `x0` [256, 5000], the labels `x1` [256, 1] and the running value `xo`
  [1, 1].  It compares a column iota with the label broadcast along the row, sums the scores under that mask along the
  row (a lane reduction: the row's picked score), forms `max 0 ((1 + score) - picked)`, zeroes the label's own column,
  sums everything that is left (a reduction over both tile axes, through a [1, 256, 5000] view), and adds it to the
  running value.  Read at the ideal instance that is: running value plus the sum over the tile's rows of the row loss of
  the specification.  The two reductions are plain finite sums there; the [1, 256, 5000] view is a bijection of the index
  set and does not change the sum.
-/
import proofs.«405424_j49374944035068_1_alg».proof.Proof.Gen.KernelIdeal.Skeleton
import proofs.«405424_j49374944035068_1_alg».proof.Proof.Spec
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen Cert.Hinge

/-- Row `r` of a tile of scores. -/
abbrev tileRow (x0 : Vec Ideal S256x5000 .f32) (r : Fin 256) : Fin 5000 → EReal := fun q => x0 (ix2 r q)

/-- The lane reduction along a tile's rows, viewed as a [256, 1] column, read at row `r`: the sum of the row. -/
theorem rowsum_apply (v : FVec Ideal S256x5000 .f32) (r : Fin 256) :
    shapeCast S256x1 (multiReduction .add [1] S256 v 0x00000000#32 reduces_S256x5000_S256 (.inl rfl) rfl) shapeCasts_S256_S256x1
        (ix2 r (0 : Fin 1))
      = ∑ k : Fin 5000, v (ix2 r k) := by
  refine (shapeCast_apply _ _ (ix2 r (0 : Fin 1)) (ix1 r) (by
    rw [Shape.rowMajor_val_one, Shape.rowMajor_val_two]; show r.val = r.val * 1 + 0; omega)).trans ?_
  refine (Ideal.multiReduction_add_single v 0x00000000#32 reduces_S256x5000_S256 (.inl rfl) rfl (ix1 r)).trans ?_
  refine Finset.sum_congr rfl fun k _ => congrArg v ?_
  funext a
  match a with
  | ⟨0, _⟩ => rfl
  | ⟨1, _⟩ => rfl

/-- The reduction over both tile axes through the [1, 256, 5000] view, extracted at its one entry: the sum over the tile. -/
theorem tilesum_apply (v : FVec Ideal S256x5000 .f32) :
    extractAt ![0, 0, 0]
        (shapeCast S1x1x1 (multiReduction .add [1, 2] S1 (shapeCast S1x256x5000 v shapeCasts_S256x5000_S1x256x5000) 0x00000000#32
          reduces_S1x256x5000_S1 (.inl rfl) rfl) shapeCasts_S1_S1x1x1) inpos_S1x1x1_p0_0_0
      = ∑ r : Fin 256, ∑ q : Fin 5000, v (ix2 r q) := by
  unfold extractAt
  unfold shapeCast
  refine (Ideal.multiReduction_add_total _ 0x00000000#32 reduces_S1x256x5000_S1
    (fun b => by obtain rfl : b = 0 := Subsingleton.elim _ _; rfl) (.inl rfl) rfl _).trans ?_
  refine (Equiv.sum_comp (Shape.reshapeEquiv shapeCasts_S256x5000_S1x256x5000) v).trans ?_
  exact sum_idx2 v

/-- THE BODY'S STORE AT THE IDEAL INSTANCE: the running value plus the tile's 256 row losses. -/
theorem pay2_apply (x0 : Vec Ideal S256x5000 .f32) (x1 : Vec Ideal S256x1 .i32) (xo : Vec Ideal S1x1 .f32) (y : S1x1.Idx) :
    k0_pay2 (F := Ideal) x0 x1 xo y = xo y + ∑ r : Fin 256, rowLoss (tileRow x0 r) (x1 (ix2 r (0 : Fin 1))) := by
  unfold k0_pay2
  dsimp only
  rw [addf_apply, shapeCast_self, broadcast_apply, tilesum_apply]
  congr 1
  refine Finset.sum_congr rfl fun r _ => ?_
  unfold rowLoss
  refine Finset.sum_congr rfl fun q _ => ?_
  have hb : ∀ (α : Type) (u : S256x1.Idx → α) (k : Fin 5000),
      broadcastTo S256x5000 u broadcasts_S256x1_S256x5000 (ix2 r k) = u (ix2 r (0 : Fin 1)) :=
    fun α u k => broadcastTo_apply u _ (ix2 r k) (ix2 r (0 : Fin 1)) (fun a => by
      match a with
      | ⟨0, _⟩ => rfl
      | ⟨1, _⟩ => rfl)
  -- the mask at (r, k): the column's word against the row's label
  have hm : ∀ k : Fin 5000, cmpi .eq (iota .tc S256x5000 32 [1] iota_S256x5000_d1_w32)
      (broadcastTo S256x5000 (shapeCast S256x1 x1 shapeCasts_S256x1_S256x1) broadcasts_S256x1_S256x5000) (ix2 r k)
        = IntOp.cmpi .eq (colWord k) (x1 (ix2 r (0 : Fin 1))) := fun k => by
    show IntOp.cmpi .eq (iota .tc S256x5000 32 [1] iota_S256x5000_d1_w32 (ix2 r k))
      (broadcastTo S256x5000 (shapeCast S256x1 x1 shapeCasts_S256x1_S256x1) broadcasts_S256x1_S256x5000 (ix2 r k)) = _
    rw [iota_single_apply, hb, shapeCast_self]
  have hzero : (FloatOps.ofBits (F := Ideal) .f32 0x00000000#32 : EReal) = 0 := Ideal.ofBits_zero_f32
  -- the row's picked score, through the lane reduction and the column broadcast
  have hp : ∀ (M : FVec Ideal S256x5000 .f32),
      (∀ k : Fin 5000, M (ix2 r k) = Scalar.select (IntOp.cmpi .eq (colWord k) (x1 (ix2 r (0 : Fin 1)))) (tileRow x0 r k) 0) →
      broadcastTo S256x5000 (shapeCast S256x1 (multiReduction .add [1] S256 M 0x00000000#32 reduces_S256x5000_S256 (.inl rfl) rfl)
        shapeCasts_S256_S256x1) broadcasts_S256x1_S256x5000 (ix2 r q) = picked (tileRow x0 r) (x1 (ix2 r (0 : Fin 1))) :=
    fun M hM => ((hb _ _ q).trans (rowsum_apply M r)).trans (Finset.sum_congr rfl fun k _ => hM k)
  have hmask : ∀ k : Fin 5000, (select (cmpi .eq (iota .tc S256x5000 32 [1] iota_S256x5000_d1_w32)
        (broadcastTo S256x5000 (shapeCast S256x1 x1 shapeCasts_S256x1_S256x1) broadcasts_S256x1_S256x5000))
        x0 (broadcast S256x5000 (FloatOps.ofBits (F := Ideal) .f32 0x00000000#32)) : FVec Ideal S256x5000 .f32) (ix2 r k)
      = Scalar.select (IntOp.cmpi .eq (colWord k) (x1 (ix2 r (0 : Fin 1)))) (tileRow x0 r k) 0 := fun k => by
    show Scalar.select _ _ _ = _
    rw [hm k]
    exact congrArg (Scalar.select _ _) hzero
  show Scalar.select _ _ _ = _
  refine congr (congr (congrArg Scalar.select (hm q)) hzero) ?_
  refine congr (congrArg max hzero) ?_
  exact congrArg (HSub.hSub (margin + tileRow x0 r q)) (hp _ hmask)

end Cert.KernelIdeal.Pay

end
-- ==== Proof.KValue.lean ====
/-
  The kernel's run at the ideal instance: its result is the total loss, divided by the count.

  Grid point `t` stages rows `256 t … 256 t + 255` of the scores and of the labels (the labels through the host's
  reshape to a column before the launch).  By the case lemmas the [1, 1] output's staging buffer holds, after point 0,
  the zero entry plus block 0's row losses, and after each later point what the point before left plus that point's block:
  by induction on the point it holds the loss of the first `256 (t + 1)` rows.  The buffer is written back once, after
  the last point, when that prefix is the whole sum; the host then views the [1, 1] array as a scalar and divides by the
  count.
-/
import proofs.«405424_j49374944035068_1_alg».proof.Proof.Gen.KernelIdeal.Frame
import proofs.«405424_j49374944035068_1_alg».proof.Proof.KPieces
import proofs.«405424_j49374944035068_1_alg».proof.Proof.KPay
import proofs.«405424_j49374944035068_1_alg».proof.Proof.Spec
import Idealize.ShloMosaic.Lib.Pipeline.Value
import Idealize.ShloMosaic.Lib.StableHlo.Run
import Idealize.ShloMosaic.Lib.Tactic

noncomputable section

namespace Cert.KernelIdeal.RunValue

open Idealize.ShloMosaic Idealize.ShloMosaic.TcCoe Idealize.SL.Sem Idealize.ShloMosaic.ValueIdx
open Idealize.ShloMosaic.Pipeline (Dat)
open Cert.KernelIdeal Cert.KernelIdeal.Gen Cert.Hinge

variable (m : (ℓ : Loc nD τ sig) → Buf (Elt Ideal) ℓ) (ρ : Dev nD → PrngReg)

/-- The scores and the labels as launched. -/
abbrev scoreArr (c : Dev nD) : (⟨2, ![16384, 5000]⟩ : Shape).Idx → EReal := m ((c : Thread nD τ).loc main_arg0)
abbrev labelArr (c : Dev nD) : (⟨1, ![16384]⟩ : Shape).Idx → BitVec 32 := m ((c : Thread nD τ).loc main_arg1)

/-- The tile of scores and the tile of labels that grid point `t` stages. -/
abbrev sblk (c : Dev nD) (t : Fin cfg0.N) : Vec Ideal S256x5000 .f32 := iblk m c 0 t
abbrev lblk (c : Dev nD) (t : Fin cfg0.N) : Vec Ideal S256x1 .i32 := iblk m c 1 t

/-- Both input windows step one block of rows per grid point and stay in block column 0. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry (r, q) of point `t`'s tile of scores is entry (256 t + r, q) of the score matrix. -/
theorem score_blk (c : Dev nD) (t : Fin cfg0.N) (r : Fin 256) (q : Fin 5000) (h : 256 * t.val + r.val < 16384) :
    sblk m c t (ix2 r q) = scoreArr m c (ix2 ⟨256 * t.val + r.val, h⟩ q) := by
  show iblk m c 0 t (ix2 r q) = _
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = 256 * t.val + r.val; rw [(idx0 t).1]; omega
  | ⟨1, _⟩ => show win0_0.index t 1 * 5000 + 1 * q.val = q.val; rw [(idx0 t).2]; omega

/-- The label column the region finds: the host's reshape of the label vector. -/
theorem V_labels (c : Dev nD) :
    (V m c main_v0 : S16384x1.Idx → BitVec 32) = shapeCast S16384x1 (labelArr m c) shapeCasts_S16384_S16384x1 := by
  show StableHlo.after hostOps0 (fun b => m (c, b)) (Proc.devRef .tc main_v0) = _
  after_results
  rfl

/-- Entry (r, 0) of point `t`'s tile of labels is label 256 t + r. -/
theorem label_blk (c : Dev nD) (t : Fin cfg0.N) (r : Fin 256) (h : 256 * t.val + r.val < 16384) :
    lblk m c t (ix2 r (0 : Fin 1)) = labelArr m c (ix1 ⟨256 * t.val + r.val, h⟩) := by
  show iblk m c 1 t (ix2 r (0 : Fin 1)) = _
  unfold iblk
  rw [View.read_apply]
  show V m c main_v0 _ = _
  rw [V_labels]
  refine shapeCast_apply _ _ _ (ix1 ⟨256 * t.val + r.val, h⟩) ?_
  rw [Shape.rowMajor_val_one, Shape.rowMajor_val_two]
  show 256 * t.val + r.val = (win0_1.index t 0 * 256 + 1 * r.val) * 1 + (win0_1.index t 1 * 1 + 1 * 0)
  rw [(idx1 t).1, (idx1 t).2]; omega

/-- The row losses of point `t`'s tile are the losses of rows `256 t … 256 t + 255`. -/
theorem block_loss (c : Dev nD) (t : Fin cfg0.N) :
    ∑ r : Fin 256, rowLoss (Pay.tileRow (sblk m c t) r) (lblk m c t (ix2 r (0 : Fin 1)))
      = ∑ r : Fin 256, lossN (scoreArr m c) (labelArr m c) (256 * t.val + r.val) := by
  have hN : t.val < 64 := lt_of_lt_of_eq t.isLt N_0
  refine Finset.sum_congr rfl fun r _ => ?_
  have h : 256 * t.val + r.val < 16384 := by have := r.isLt; omega
  rw [lossN_block _ _ t.val hN r h]
  exact congr (congrArg rowLoss (funext fun q => score_blk m c t r q h)) (label_blk m c t r h)

/-- THE ACCUMULATION: after grid point `n` the output's staging buffer holds the loss of the first `256 (n + 1)` rows. -/
theorem outsAt_eq (c : Dev nD) : ∀ (n : ℕ) (h : n < cfg0.N),
    outsAt0 m c n h = fun _ => prefixLoss (scoreArr m c) (labelArr m c) (n + 1)
  | 0, h => by
    refine (outsAt0_A m c ⟨0, h⟩ rfl).trans ?_
    refine (Pieces.out_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) ((hcond0_0 ⟨0, h⟩).mpr rfl) (sblk m c ⟨0, h⟩) (lblk m c ⟨0, h⟩)).trans ?_
    funext y
    refine (Pay.pay2_apply (sblk m c ⟨0, h⟩) (lblk m c ⟨0, h⟩) (k0_pay1 (F := Ideal)) y).trans ?_
    show _ = prefixLoss (scoreArr m c) (labelArr m c) (0 + 1)
    rw [prefixLoss_succ, prefixLoss_zero]
    exact congr (congrArg HAdd.hAdd Ideal.ofBits_zero_f32) (block_loss m c ⟨0, h⟩)
  | n + 1, h => by
    have hN : cfg0.N = 64 := N_0
    have hB : ¬(⟨n + 1, h⟩ : Fin cfg0.N).val % 64 = 0 := by dsimp only; omega
    refine (outsAt0_B m c ⟨n + 1, h⟩ hB).trans ?_
    refine (Pieces.out_B (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (fun hh => hB ((hcond0_0 ⟨n + 1, h⟩).mp hh))
      (sblk m c ⟨n + 1, h⟩) (lblk m c ⟨n + 1, h⟩)
      (outsAt0 m c ((⟨n + 1, h⟩ : Fin cfg0.N).val - 1) (Nat.lt_of_le_of_lt (Nat.sub_le _ _) (⟨n + 1, h⟩ : Fin cfg0.N).isLt))).trans ?_
    funext y
    refine (Pay.pay2_apply (sblk m c ⟨n + 1, h⟩) (lblk m c ⟨n + 1, h⟩) _ y).trans ?_
    show _ = prefixLoss (scoreArr m c) (labelArr m c) (n + 1 + 1)
    rw [prefixLoss_succ]
    exact congr (congrArg HAdd.hAdd (congrFun (outsAt_eq c n (Nat.lt_of_succ_lt h)) y)) (block_loss m c ⟨n + 1, h⟩)

/-- The last grid point. -/
abbrev tLast : Fin cfg0.N := ⟨63, by rw [show cfg0.N = 64 from N_0]; decide⟩

/-- The [1, 1] result array's final contents: the total loss at its one entry. -/
abbrev resultArr (c : Dev nD) : Buf (Elt Ideal) ((c : Thread nD τ).loc main_v1) := fun _ => total (scoreArr m c) (labelArr m c)

/-- The one write-back, after the last point, writes the total. -/
theorem flushed_eq (c : Dev nD) (t : Fin cfg0.N) (hf : (cfg0.win 2).flush t = true) :
    (dats m 0 c).flushed 2 t = ((cfg0.win 2).blk t).view.read (Elt Ideal) (resultArr m c) := by
  have hN : cfg0.N = 64 := N_0
  have h63 : t.val = 63 := by have := (flush0_2 t).mp hf; have := t.isLt; omega
  show (cfg0.win 2).cut (grid0.coords t) ((dats m 0 c).after 2 t) = _
  rw [after0_2, outsAt_eq]
  have e : prefixLoss (scoreArr m c) (labelArr m c) (t.val + 1) = total (scoreArr m c) (labelArr m c) := by
    rw [h63]; exact prefixLoss_all _ _
  rw [e]
  funext y
  rw [View.read_apply]
  exact (cast_eq _ _).symm

/-- The result array's one entry lies in the block written back after the last point, so the array ends at the total. -/
theorem final_out (c : Dev nD) : (dats m 0 c).arrAt 2 cfg0.N = resultArr m c :=
  (dats m 0 c).arrAt_eq_of_cover 2 (resultArr m c) (flushed_eq m c) fun i =>
    ⟨tLast, (flush0_2 tLast).mpr rfl, by
      show i ∈ ((View.whole main_v1).slice (win0_2.rect tLast)).set
      rw [View.set_slice_whole, Rect.mem_set_unit]
      intro a
      have h0 : (i 0 : Nat) < 1 := (i 0).isLt
      have h1 : (i 1 : Nat) < 1 := (i 1).isLt
      have e0 : win0_2.index tLast 0 * win0_2.size 0 = 0 ∧ win0_2.xsize (grid0.coords tLast) 0 = 1 := by decide +kernel
      have e1 : win0_2.index tLast 1 * win0_2.size 1 = 0 ∧ win0_2.xsize (grid0.coords tLast) 1 = 1 := by decide +kernel
      match a with
      | ⟨0, _⟩ =>
        show win0_2.index tLast 0 * win0_2.size 0 ≤ (i 0 : Nat) ∧ (i 0 : Nat) < win0_2.index tLast 0 * win0_2.size 0 + win0_2.xsize (grid0.coords tLast) 0
        rw [e0.1, e0.2]; omega
      | ⟨1, _⟩ =>
        show win0_2.index tLast 1 * win0_2.size 1 ≤ (i 1 : Nat) ∧ (i 1 : Nat) < win0_2.index tLast 1 * win0_2.size 1 + win0_2.xsize (grid0.coords tLast) 1
        rw [e1.1, e1.2]; omega⟩

/-- What the host lines after the region leave in the result buffer: the total through the scalar view, divided. -/
theorem tail_result (c : Dev nD) :
    Pipeline.afterTail₀ cfgs (dats m) 0 (V0 m) [hostOps1] c main_v3 = finish (total (scoreArr m c) (labelArr m c)) := by
  unfold Pipeline.afterTail₀
  show StableHlo.after hostOps1 _ (Proc.devRef .tc main_v3) = _
  after_results
  rw [Pipeline.withArrays_arr spec0 launch0.win.arr_inj c _ _ 2, final_out]
  rfl

/-- THE KERNEL'S RUN, READ: the result is the total loss over the count; the arguments end as launched. -/
theorem run : θ_run defs (onTc (τ := τ) (main (F := Ideal))) ⟨m, fun _ => 0, ρ⟩ fun r => ∀ c : Dev nD,
      r.2.mem ((c : Thread nD τ).loc main_v3) = finish (total (scoreArr m c) (labelArr m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 (by decide) (by decide))).trans (tail_result m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.RunValue

end
-- ==== Proof.PreRange.lean ====
/-
  What the precondition says about the labels.

  The printed predicate is the conjunction of "every score is finite" and "every label word, read as a signed integer, is at
  least 0 and below 5000".  From the predicate being all ones we keep only the second half: each label word is, as a natural
  number, below 5000 — it names a column.  (The losses are compared without any appeal to finiteness.)
-/
import proofs.«405424_j49374944035068_1_alg».proof.Pre_finite_inputs
import proofs.«405424_j49374944035068_1_alg».proof.Proof.Gen.Pre_finite_inputs
import Idealize.ShloMosaic.Lib.ReduceAll
import Idealize.ShloMosaic.Lib.ValueIdx

noncomputable section

namespace Cert.Hinge

open Idealize.ShloMosaic Idealize.ShloMosaic.ValueIdx Cert.Pre_finite_inputs Cert.Pre_finite_inputs.Facts

instance : Subsingleton S_.Idx := ⟨fun a b => funext fun d => d.elim0⟩

/-- A 32-bit word that is signed-at-least 0 and signed-below 5000 is below 5000 as a natural number. -/
theorem toNat_lt_of_signed (x : BitVec 32) (h0 : IntOp.cmpi .sge x 0#32 = 1#1) (h1 : IntOp.cmpi .slt x 5000#32 = 1#1) :
    x.toNat < 5000 := by
  have a0 : (0#32 : BitVec 32).sle x = true := by
    have : BitVec.ofBool ((0#32 : BitVec 32).sle x) = 1#1 := h0
    cases hb : (0#32 : BitVec 32).sle x <;> simp_all
  have a1 : x.slt 5000#32 = true := by
    have : BitVec.ofBool (x.slt 5000#32) = 1#1 := h1
    cases hb : x.slt 5000#32 <;> simp_all
  rw [BitVec.sle_iff_toInt_le] at a0
  rw [BitVec.slt_iff_toInt_lt] at a1
  have e := BitVec.toInt_eq_toNat_cond x
  have := x.isLt
  simp at a0 a1
  split at e <;> omega

/-- UNDER THE PRECONDITION every label names a column. -/
theorem label_lt_of_pre {F : FTy → Type} [FloatOps F] (score : FVec F S16384x5000 .f32) (tgt : IVec S16384 32)
    (h : Cert.Pre_finite_inputs.fn (F := F) score tgt = fun _ => 1#1) (p : Fin 16384) : (tgt (ix1 p)).toNat < 5000 := by
  have h' := congrFun h ix0
  dsimp only [Cert.Pre_finite_inputs.fn] at h'
  obtain ⟨-, hall⟩ := IntOp.andi_eq_one.1 h'
  have hp := Host.reduce_andi_all _ _ _ _ _ hall (ix1 p)
  obtain ⟨hge, hlt⟩ := IntOp.andi_eq_one.1 hp
  exact toNat_lt_of_signed (tgt (ix1 p)) hge hlt

end Cert.Hinge

end
-- ==== Proof.lean ====
/-
  The multiple-choice hinge loss: a Pallas kernel that streams 64 tiles of 256 rows and accumulates one scalar, against
  the jnp reference that gathers each row's correct score and sums a masked [16384, 5000] array.

  Both compute, for scores `s` and labels `t` with `0 ≤ t_i < 5000`,
      ( ∑_i ∑_{c ≠ t_i} max 0 ((1 + s_ic) - s_{i, t_i}) ) / (16384 · 4999).
  The kernel finds `s_{i, t_i}` as the sum over the row of the scores under the mask "column = label"; the reference as a
  clamped gather at the wrapped label, kept where the wrapped label passes a range test.  For a label that names a
  column the two agree (one summand survives under the mask; the wrap, the test and the clamp do nothing): this is where
  the precondition's label range is used, and the only place.  The kernel's sum is taken tile by tile across the grid, the
  reference's in one reduction; over the extended reals a finite sum does not depend on its grouping, so no finiteness of
  the scores is needed for the equality.  Both programs then divide by the same printed word for the count.

  The frames of the two kernel programs are the generated ones; the reference's frame is its run with the result dropped;
  the idealization rewrote no operation.
-/
import proofs.«405424_j49374944035068_1_alg».proof.Defs
import proofs.«405424_j49374944035068_1_alg».proof.Proof.Gen.Kernel
import proofs.«405424_j49374944035068_1_alg».proof.Proof.Gen.Kernel.Frame
import proofs.«405424_j49374944035068_1_alg».proof.Proof.Gen.KernelIdeal
import proofs.«405424_j49374944035068_1_alg».proof.Proof.Gen.KernelIdeal.Frame
import proofs.«405424_j49374944035068_1_alg».proof.Proof.Gen.ReferenceIdeal
import proofs.«405424_j49374944035068_1_alg».proof.Proof.Gen.Pre_finite_inputs
import proofs.«405424_j49374944035068_1_alg».proof.Proof.RefRun
import proofs.«405424_j49374944035068_1_alg».proof.Proof.RefValue
import proofs.«405424_j49374944035068_1_alg».proof.Proof.KValue
import proofs.«405424_j49374944035068_1_alg».proof.Proof.PreRange
import Idealize.ShloMosaic.Adequacy
import Idealize.ShloMosaic.Init

noncomputable section

namespace Cert.Proof

open Idealize.ShloMosaic Idealize.ShloMosaic.TcCoe Idealize.SL.Sem Cert.Hinge

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal instance, from memories that agree on the scores and the labels, both programs end with the total loss
    over the count: the kernel by its accumulation across the grid, the reference by its one reduction, the labels naming
    columns by the precondition. -/
theorem algebraic : Cert.algebraic_KernelIdeal_ReferenceIdeal := by
  intro m ρ m' ρ' hpre hagree
  refine ⟨fun c => finish (total (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ (fun p => label_lt_of_pre _ _ (hpre c) p)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
